-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_keep" .f32 0x3FB6DB6E#32 ((16777216 / 11744051 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S160000 : Shape := ⟨1, ![160000]⟩
abbrev S10000 : Shape := ⟨1, ![10000]⟩
abbrev S512x512 : Shape := ⟨2, ![512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S10000 : S_.BroadcastsInDim S10000 (![] : Fin 0 → Fin S10000.rank)
  reducesTo_S10000_S_d0 : S10000.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg6 : FVec F S10000x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S10000x512 .f32 := Host.absf main_arg6
  let main_cst_6 : FVec F S_ .f32 := constant S_ .f32 0x7F800000#32
  let main_v20 : FVec F S10000x512 .f32 := broadcastInDim S10000x512 ![] bcast_S_S10000x512 main_cst_6
  let main_v21 : IVec S10000x512 1 := cmpf .olt main_v19 main_v20
  let main_c_7 : IVec S_ 1 := constantI S_ 1 1#1
  let main_v22 : IVec S_ 1 := (fun x v => Host.reduce IntOp.andi x v reducesTo_S10000x512_S_d0_1 h_S_) main_v21 main_c_7
  let main_v23 : IVec S_ 1 := andi main_v18 main_v22
  main_v23

def fn {F : FTy → Type} [FloatOps F] (main_arg0 : FVec F S10000x512 .f32) (main_arg1 : IVec S160000 32) (main_arg2 : IVec S160000 32) (main_arg3 : FVec F S160000 .f32) (main_arg4 : FVec F S10000 .f32) (main_arg5 : FVec F S512x512 .f32) (main_arg6 : FVec F S10000x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S160000 .f32 := Host.absf main_arg3
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S10000 .f32 := Host.absf main_arg4
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_v13 main_v16
-- ==== Kernel.lean ====
abbrev S10000x512 : Shape := ⟨2, ![10000, 512]⟩
abbrev S160000 : Shape := ⟨1, ![160000]⟩
abbrev S10000 : Shape := ⟨1, ![10000]⟩
abbrev S512x512 : Shape := ⟨2, ![512, 512]⟩
abbrev S_ : Shape := ⟨0, ![]⟩
abbrev S160000x1 : Shape := ⟨2, ![160000, 1]⟩
abbrev S160000x512 : Shape := ⟨2, ![160000, 512]⟩
abbrev S10000x1 : Shape := ⟨2, ![10000, 1]⟩
abbrev S1000x512 : Shape := ⟨2, ![1000, 512]⟩

abbrev nBuf : Space → Nat
  | .hbm => 28
  | .vmem => 7
  | .smem => 0
  | _ => 0

abbrev bufTy : (tb : Table) → Fin (tcTables nBuf tb) → BufTy
  | .hbm, ⟨0, _⟩ => ⟨S10000x512, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S10000, .f32⟩
  | .hbm, ⟨5, _⟩ => ⟨S512x512, .f32⟩
  | .hbm, ⟨6, _⟩ => ⟨S10000x512, .f32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S160000x1, .f32⟩
  | .hbm, ⟨17, _⟩ => ⟨S160000x512, .f32⟩
  | .hbm, ⟨18, _⟩ => ⟨S160000x512, .f32⟩
  | .hbm, ⟨19, _⟩ => ⟨S_, .f32⟩
  | .hbm, ⟨20, _⟩ => ⟨S10000x512, .f32⟩
  | .hbm, ⟨21, _⟩ => ⟨S160000x1, .i32⟩
  | .hbm, ⟨22, _⟩ => ⟨S10000x512, .f32⟩
  | .hbm, ⟨23, _⟩ => ⟨S10000x1, .f32⟩
  | .hbm, ⟨24, _⟩ => ⟨S10000x512, .f32⟩
  | .hbm, ⟨25, _⟩ => ⟨S10000x512, .f32⟩
  | .hbm, ⟨26, _⟩ => ⟨S10000x512, .f32⟩
  | .hbm, ⟨27, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  natLt_1_32 : 1 < 32
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S1000x512_S512x512_S1000x512_1_1_0_0_n_n_wf : DotDims.WF S1000x512 S512x512 S1000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S10000x512.size a
  hwx0_3 : ∀ i : grid0.Coords, EltTy.bits .f32 = 32 ∨ (Rect.block (s := S10000x512) S1000x512.size (cc0_transform_3 i) (hinb0_3 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x512_S1000x512_1_1_0_0_n_n : DotDims S1000x512 S512x512 S1000x512 where
  lhsContracting := [1]
  rhsContracting := [1]
  lhsNonContracting := [0]
  rhsNonContracting := [0]
  lhsBatch := []
  rhsBatch := []
  wf := dot_S1000x512_S512x512_S1000x512_1_1_0_0_n_n_wf

abbrev win0_0 : Pipeline.Window sig grid0 :=
  Pipeline.Window.ofSpec (Memref.whole main_v16) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x512 : Shape := ⟨2, ![10000, 512]⟩
abbrev S160000 : Shape := ⟨1, ![160000]⟩
abbrev S10000 : Shape := ⟨1, ![10000]⟩
abbrev S512x512 : Shape := ⟨2, ![512, 512]⟩
abbrev S_ : Shape := ⟨0, ![]⟩
abbrev S160000x1 : Shape := ⟨2, ![160000, 1]⟩
abbrev S160000x512 : Shape := ⟨2, ![160000, 512]⟩
abbrev S10000x1 : Shape := ⟨2, ![10000, 1]⟩

abbrev nBuf : Space → Nat
  | .hbm => 40
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S10000, .f32⟩
  | .hbm, ⟨5, _⟩ => ⟨S512x512, .f32⟩
  | .hbm, ⟨6, _⟩ => ⟨S10000x512, .f32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S160000x1, .f32⟩
  | .hbm, ⟨17, _⟩ => ⟨S160000x512, .f32⟩
  | .hbm, ⟨18, _⟩ => ⟨S160000x512, .f32⟩
  | .hbm, ⟨19, _⟩ => ⟨S_, .f32⟩
  | .hbm, ⟨20, _⟩ => ⟨S10000x512, .f32⟩
  | .hbm, ⟨21, _⟩ => ⟨S160000x1, .i32⟩
  | .hbm, ⟨22, _⟩ => ⟨S10000x512, .f32⟩
  | .hbm, ⟨23, _⟩ => ⟨S10000x1, .f32⟩
  | .hbm, ⟨24, _⟩ => ⟨S10000x512, .f32⟩
  | .hbm, ⟨25, _⟩ => ⟨S10000x512, .f32⟩
  | .hbm, ⟨26, _⟩ => ⟨S10000x512, .f32⟩
  | .hbm, ⟨27, _⟩ => ⟨S512x512, .f32⟩
  | .hbm, ⟨28, _⟩ => ⟨S10000x512, .f32⟩
  | .hbm, ⟨29, _⟩ => ⟨S_, .f32⟩
  | .hbm, ⟨30, _⟩ => ⟨S10000x512, .f32⟩
  | .hbm, ⟨31, _⟩ => ⟨S10000x512, .f32⟩
  | .hbm, ⟨32, _⟩ => ⟨S_, .f32⟩
  | .hbm, ⟨33, _⟩ => ⟨S10000x512, .f32⟩
  | .hbm, ⟨34, _⟩ => ⟨S10000x512, .i1⟩
  | .hbm, ⟨35, _⟩ => ⟨S10000x512, .f32⟩
  | .hbm, ⟨36, _⟩ => ⟨S_, .f32⟩
  | .hbm, ⟨37, _⟩ => ⟨S10000x512, .f32⟩
  | .hbm, ⟨38, _⟩ => ⟨S10000x512, .f32⟩
  | .hbm, ⟨39, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  transposes_S512x512_S512x512_1_0 : S512x512.Transposes [1, 0] S512x512
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.KeepFactor.lean ====
/-
  The dropout factor, one element at a time, on the extended reals.

  The kernel multiplies the 0/1 mask by a constant named "inv_keep", which the certificate's table reads as the
  rational 16777216/11744051; the reference divides the same mask by the f32 word 0x3F333333, which denotes the
  dyadic 11744051/16777216. Dividing an extended real by a non-zero real is multiplying by that real's
  reciprocal, and the reciprocal of 11744051/16777216 is 16777216/11744051: the two factors are one number.
  The mask itself is a one-bit comparison result turned into a float: zero-extended to 32 bits and read as a signed
  integer by the kernel, read as an unsigned integer by the reference; a single bit reads as 0 or 1 either way.
-/
import Idealize.ShloMosaic.PureOps.Ideal

noncomputable section

namespace Cert.KeepFactor

open Idealize.ShloMosaic

/-- The reference's divisor, the f32 word nearest to 0.7, denotes the dyadic rational 11744051 / 2^24. -/
theorem ofBits_keep : Ideal.ofBits .f32 0x3F333333#32 = ((11744051 / 16777216 : ℝ) : EReal) := by
  simp [Ideal.ofBits, Ideal.ieee, -EReal.coe_mul]; norm_num

/-- A single bit, widened with zeros to 32 bits and read as a signed integer, is the bit read as a natural number. -/
theorem toInt_setWidth_bit (b : BitVec 1) : (((b.setWidth 32).toInt : ℤ) : ℝ) = ((b.toNat : ℕ) : ℝ) := by
  have h : b = 0#1 ∨ b = 1#1 := by
    have := b.isLt
    rcases Nat.lt_or_ge b.toNat 1 with h0 | h1
    · left; apply BitVec.eq_of_toNat_eq; simp; omega
    · right; apply BitVec.eq_of_toNat_eq; simp; omega
  rcases h with rfl | rfl <;> norm_num

/-- The kernel's mask element (sign-read of the zero-extended bit) is the reference's (unsigned read of the bit). -/
theorem mask_eq (b : BitVec 1) :
    (FloatOps.sitofp (F := Ideal) .f32 (b.setWidth 32) : EReal) = FloatOps.uitofp (F := Ideal) .f32 b := by
  show (((b.setWidth 32).toInt : ℝ) : EReal) = ((b.toNat : ℝ) : EReal)
  rw [toInt_setWidth_bit]

/-- Dividing by the reference's word 0x3F333333 is multiplying by the exact reciprocal 16777216/11744051. -/
theorem div_keep (x : EReal) :
    Ideal.div x (Ideal.ofBits .f32 0x3F333333#32) = x * ((16777216 / 11744051 : ℝ) : EReal) := by
  rw [ofBits_keep, Ideal.div_coe (by norm_num : (11744051 / 16777216 : ℝ) ≠ 0)]
  congr 2
  norm_num

end Cert.KeepFactor

end
-- ==== Proof.Layer.lean ====
/-
  The layer as ONE function of whole arrays, and the kernel body's result read at an index.

  For an aggregated feature matrix A : [10000, 512], a weight W : [512, 512] (rows are output features) and
  dropout noise D : [10000, 512], the layer's result at (r, j) is

      max (∑ k, A (r, k) · W (j, k)) 0  ·  keep (D (r, j)),

  where keep u is the 0/1 indicator of u ≥ the threshold word, times the exact reciprocal 16777216/11744051 of
  the keep-probability word. The kernel body computes the same formula on a block of 1000 rows: its matrix
  product contracts the second axis of both operands, into a zero accumulator, so it is the plain sum; the
  changes of float format around it are the identity on the extended reals; its mask is the sign-read of the
  zero-extended comparison bit; and its scale is the constant named "inv_keep".
-/
import proofs.«180000_j12678743458315_1_alg».proof.Proof.Gen.KernelIdeal.Skeleton
import proofs.«180000_j12678743458315_1_alg».proof.Proof.KeepFactor
import Idealize.ShloMosaic.Lib.ValueIdx
import Idealize.ShloMosaic.Lib.Pipeline.Value
import Idealize.ShloMosaic.PureOps.Ideal.Laws
import Idealize.ShloMosaic.PureOps.IdealRules

noncomputable section

namespace Cert.Layer

open Idealize.ShloMosaic Idealize.ShloMosaic.ValueIdx Cert.KernelIdeal Cert.KernelIdeal.Gen

/-- One element's dropout factor: the indicator of `u ≥ threshold` (the f32 word nearest 0.3) as 0 or 1, times
    the exact reciprocal of the keep-probability word. -/
def keep (u : EReal) : EReal :=
  FloatOps.uitofp (F := Ideal) .f32 (FloatOps.cmpf (F := Ideal) (φ := .f32) .oge u (Ideal.ofBits .f32 0x3E99999A#32))
    * ((16777216 / 11744051 : ℝ) : EReal)

/-- The layer on whole arrays: relu of the product with the transposed weight, times the dropout factor. -/
def layer (A : S10000x512.Idx → EReal) (W : S512x512.Idx → EReal) (D : S10000x512.Idx → EReal) :
    S10000x512.Idx → EReal := fun i =>
  max (∑ k : Fin 512, A (ix2 (i 0) k) * W (ix2 (i 1) k)) (Ideal.ofBits .f32 0x00000000#32) * keep (D i)

/-- The kernel's named scale denotes 16777216/11744051, by the certificate's table. -/
theorem inv_keep : Named.named (F := Ideal) κ "inv_keep" (φ := .f32) 0x3FB6DB6E#32 = ((16777216 / 11744051 : ℝ) : EReal) :=
  IdealRules.named_const.ideal_named_scalar _ _ _ _ rfl

/-! ## The body's matrix product at an index -/

theorem lhs_axis0 (i : S1000x512.Idx) (q : dot_S1000x512_S512x512_S1000x512_1_1_0_0_n_n.contr.Idx) :
    (dot_S1000x512_S512x512_S1000x512_1_1_0_0_n_n.lhsIdx i q 0).val = (i 0).val := by
  unfold DotDims.lhsIdx
  rw [dif_neg (show ¬(0 : Fin S1000x512.rank) ∈ dot_S1000x512_S512x512_S1000x512_1_1_0_0_n_n.lhsBatch by decide), dif_pos (show (0 : Fin S1000x512.rank) ∈ dot_S1000x512_S512x512_S1000x512_1_1_0_0_n_n.lhsNonContracting by decide)]
  rfl
theorem lhs_axis1 (i : S1000x512.Idx) (q : dot_S1000x512_S512x512_S1000x512_1_1_0_0_n_n.contr.Idx) :
    (dot_S1000x512_S512x512_S1000x512_1_1_0_0_n_n.lhsIdx i q 1).val = (q ⟨0, by decide⟩).val :=
  dot_S1000x512_S512x512_S1000x512_1_1_0_0_n_n.lhsIdx_val_of_single rfl i q
theorem rhs_axis0 (i : S1000x512.Idx) (q : dot_S1000x512_S512x512_S1000x512_1_1_0_0_n_n.contr.Idx) :
    (dot_S1000x512_S512x512_S1000x512_1_1_0_0_n_n.rhsIdx i q 0).val = (i 1).val := by
  unfold DotDims.rhsIdx
  rw [dif_neg (show ¬(0 : Fin S512x512.rank) ∈ dot_S1000x512_S512x512_S1000x512_1_1_0_0_n_n.rhsBatch by decide), dif_pos (show (0 : Fin S512x512.rank) ∈ dot_S1000x512_S512x512_S1000x512_1_1_0_0_n_n.rhsNonContracting by decide)]
  rfl
theorem rhs_axis1 (i : S1000x512.Idx) (q : dot_S1000x512_S512x512_S1000x512_1_1_0_0_n_n.contr.Idx) :
    (dot_S1000x512_S512x512_S1000x512_1_1_0_0_n_n.rhsIdx i q 1).val = (q ⟨0, by decide⟩).val :=
  dot_S1000x512_S512x512_S1000x512_1_1_0_0_n_n.rhsIdx_val_of_single rfl i q

/-- The body's product at (p, j): row p of the left operand against row j of the right one. -/
theorem product_apply (a : FVec Ideal S1000x512 .bf16) (b : FVec Ideal S512x512 .bf16) (i : S1000x512.Idx) :
    matmul dot_S1000x512_S512x512_S1000x512_1_1_0_0_n_n none a b (constant S1000x512 .f32 0x00000000#32) i
      = ∑ k : Fin 512, a (ix2 (i 0) k) * b (ix2 (i 1) k) := by
  show FloatOps.matmul dot_S1000x512_S512x512_S1000x512_1_1_0_0_n_n none a b (constant S1000x512 .f32 0x00000000#32) i = _
  rw [Ideal.matmul_constant_zero_apply, ← Equiv.sum_comp (contrEquiv1 dot_S1000x512_S512x512_S1000x512_1_1_0_0_n_n 512 rfl rfl).symm]
  refine Finset.sum_congr rfl fun k _ => ?_
  have hk := contrEquiv1_symm_val dot_S1000x512_S512x512_S1000x512_1_1_0_0_n_n 512 rfl rfl k
  have el : dot_S1000x512_S512x512_S1000x512_1_1_0_0_n_n.lhsIdx i ((contrEquiv1 dot_S1000x512_S512x512_S1000x512_1_1_0_0_n_n 512 rfl rfl).symm k) = ix2 (i 0) k := funext fun a => Fin.ext (by
    match a with
    | ⟨0, _⟩ => exact lhs_axis0 _ _
    | ⟨1, _⟩ => exact (lhs_axis1 _ _).trans hk)
  have er : dot_S1000x512_S512x512_S1000x512_1_1_0_0_n_n.rhsIdx i ((contrEquiv1 dot_S1000x512_S512x512_S1000x512_1_1_0_0_n_n 512 rfl rfl).symm k) = ix2 (i 1) k := funext fun a => Fin.ext (by
    match a with
    | ⟨0, _⟩ => exact rhs_axis0 _ _
    | ⟨1, _⟩ => exact (rhs_axis1 _ _).trans hk)
  rw [el, er]
  rfl

/-! ## The body's result at an index -/

/-- What the body stores at (p, j) of its block, from the three loaded blocks: the layer's formula on them. -/
theorem body_apply (x0 : Vec Ideal S1000x512 .f32) (x1 : Vec Ideal S512x512 .f32) (x2 : Vec Ideal S1000x512 .f32)
    (i : S1000x512.Idx) :
    k0_pay1 (F := Ideal) x0 x1 x2 i
      = max (∑ k : Fin 512, x0 (ix2 (i 0) k) * x1 (ix2 (i 1) k)) (Ideal.ofBits .f32 0x00000000#32) * keep (x2 i) := by
  unfold k0_pay1
  rw [mulf_apply, maximumf_apply, product_apply, mulf_apply]
  simp only [shapeCast_self, truncf_apply]
  show max _ _ * (FloatOps.sitofp (F := Ideal) .f32 ((FloatOps.cmpf (F := Ideal) (φ := .f32) .oge (x2 i) (Ideal.ofBits .f32 0x3E99999A#32)).setWidth 32)
      * Named.named (F := Ideal) κ "inv_keep" (φ := .f32) 0x3FB6DB6E#32) = _
  rw [Cert.KeepFactor.mask_eq, inv_keep]
  rfl

/-- So a block's element is the layer's element of whole arrays, as soon as the loaded blocks are the arrays read
    at the matching rows: the left block's row `i 0` is row `e 0` of `A`, the weight block is `W`, the noise
    block's element `i` is `D`'s element `e`. -/
theorem body_eq_layer (A : S10000x512.Idx → EReal) (W : S512x512.Idx → EReal) (D : S10000x512.Idx → EReal)
    (x0 : Vec Ideal S1000x512 .f32) (x1 : Vec Ideal S512x512 .f32) (x2 : Vec Ideal S1000x512 .f32)
    (i : S1000x512.Idx) (e : S10000x512.Idx)
    (hA : ∀ k : Fin 512, x0 (ix2 (i 0) k) = A (ix2 (e 0) k))
    (hW : ∀ k : Fin 512, x1 (ix2 (i 1) k) = W (ix2 (e 1) k))
    (hD : x2 i = D e) :
    k0_pay1 (F := Ideal) x0 x1 x2 i = layer A W D e := by
  rw [body_apply, hD]
  unfold layer
  congr 2
  exact Finset.sum_congr rfl fun k _ => by rw [hA k, hW k]

end Cert.Layer

end
-- ==== Proof.KernelValue.lean ====
/-
  The kernel's result array, whole.

  The grid has ten points; point t works on rows 1000·t … 1000·t + 999 of the aggregated features, of the dropout
  noise and of the result, and on the whole weight. So the block point t writes back is rows 1000·t … of the layer
  of the whole arrays, and since every row r lies in the block of point r / 1000, the result array ends holding the
  layer of the arrays the region found: the aggregated features the host operations computed, the weight and the
  noise as launched.
-/
import proofs.«180000_j12678743458315_1_alg».proof.Proof.Gen.KernelIdeal.Value
import proofs.«180000_j12678743458315_1_alg».proof.Proof.Layer
import Idealize.ShloMosaic.Lib.Pipeline.Value
import Idealize.ShloMosaic.Lib.Tactic

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps over the grid: the row-blocked windows are at block (t, 0), the weight at (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point t's block of the aggregated features is rows 1000·t … of the array the region found. -/
theorem agg_block_apply (c : Dev nD) (t : Fin cfg0.N) (x : S1000x512.Idx) (k : S10000x512.Idx)
    (hk0 : (k 0).val = 1000 * t.val + (x 0).val) (hk1 : (k 1).val = (x 1).val) :
    (iblk m c 0 t : Vec Ideal S1000x512 .f32) x = (V m c main_v16 : S10000x512.Idx → EReal) k := by
  obtain ⟨e0, e1, -⟩ := block_index t
  unfold iblk
  rw [View.read_apply]
  show V m c main_v16 _ = V m c main_v16 _
  congr 1
  funext a
  apply Fin.ext
  match a with
  | ⟨0, _⟩ => show win0_0.index t 0 * 1000 + 1 * (x 0).val = (k 0).val; rw [e0, hk0]; omega
  | ⟨1, _⟩ => show win0_0.index t 1 * 512 + 1 * (x 1).val = (k 1).val; rw [e1, hk1]; omega

/-- Every point's block of the weight is the whole weight. -/
theorem weight_block_apply (c : Dev nD) (t : Fin cfg0.N) (x : S512x512.Idx) (k : S512x512.Idx)
    (hk0 : (k 0).val = (x 0).val) (hk1 : (k 1).val = (x 1).val) :
    (iblk m c 1 t : Vec Ideal S512x512 .f32) x = (V m c main_arg5 : S512x512.Idx → EReal) k := by
  obtain ⟨-, -, e2, e3, -⟩ := block_index t
  unfold iblk
  rw [View.read_apply]
  show V m c main_arg5 _ = V m c main_arg5 _
  congr 1
  funext a
  apply Fin.ext
  match a with
  | ⟨0, _⟩ => show win0_1.index t 0 * 512 + 1 * (x 0).val = (k 0).val; rw [e2, hk0]; omega
  | ⟨1, _⟩ => show win0_1.index t 1 * 512 + 1 * (x 1).val = (k 1).val; rw [e3, hk1]; omega

/-- Point t's block of the dropout noise is rows 1000·t … of the noise. -/
theorem noise_block_apply (c : Dev nD) (t : Fin cfg0.N) (x : S1000x512.Idx) (k : S10000x512.Idx)
    (hk0 : (k 0).val = 1000 * t.val + (x 0).val) (hk1 : (k 1).val = (x 1).val) :
    (iblk m c 2 t : Vec Ideal S1000x512 .f32) x = (V m c main_arg6 : S10000x512.Idx → EReal) k := by
  obtain ⟨-, -, -, -, e4, e5, -⟩ := block_index t
  unfold iblk
  rw [View.read_apply]
  show V m c main_arg6 _ = V m c main_arg6 _
  congr 1
  funext a
  apply Fin.ext
  match a with
  | ⟨0, _⟩ => show win0_2.index t 0 * 1000 + 1 * (x 0).val = (k 0).val; rw [e4, hk0]; omega
  | ⟨1, _⟩ => show win0_2.index t 1 * 512 + 1 * (x 1).val = (k 1).val; rw [e5, hk1]; omega

/-- What point t writes back is block t of the layer of the whole arrays. -/
theorem flushed_eq (c : Dev nD) (t : Fin cfg0.N) :
    (dats m 0 c).flushed 3 t = ((cfg0.win 3).blk t).view.read (Elt Ideal)
      (Cert.Layer.layer (V m c main_v16) (V m c main_arg5) (V m c main_arg6)) := by
  rw [flushed3]
  unfold out0_3
  rw [View.canon_unit_zero origin]
  simp only [View.ld_unit_zero (S := S1000x512) origin, View.ld_unit_zero (S := S512x512) origin]
  obtain ⟨-, -, -, -, -, -, e6, e7⟩ := block_index t
  funext j
  show k0_pay1 (F := Ideal) (iblk m c 0 t) (iblk m c 1 t) (iblk m c 2 t) j
    = Cert.Layer.layer (V m c main_v16) (V m c main_arg5) (V m c main_arg6) (((cfg0.win 3).blk t).view.emb j)
  have he0 : ((((cfg0.win 3).blk t).view.emb j) 0).val = 1000 * t.val + (j 0).val := by
    show win0_3.index t 0 * 1000 + 1 * (j 0).val = _; rw [e6]; omega
  have he1 : ((((cfg0.win 3).blk t).view.emb j) 1).val = (j 1).val := by
    show win0_3.index t 1 * 512 + 1 * (j 1).val = _; rw [e7]; omega
  exact Cert.Layer.body_eq_layer (V m c main_v16) (V m c main_arg5) (V m c main_arg6)
    (iblk m c 0 t) (iblk m c 1 t) (iblk m c 2 t) j (((cfg0.win 3).blk t).view.emb j)
    (fun k => agg_block_apply m c t (ix2 (j 0) k) (ix2 ((((cfg0.win 3).blk t).view.emb j) 0) k) he0 rfl)
    (fun k => weight_block_apply m c t (ix2 (j 1) k) (ix2 ((((cfg0.win 3).blk t).view.emb j) 1) k) he1 rfl)
    (noise_block_apply m c t j (((cfg0.win 3).blk t).view.emb j) he0 he1)

/-- An index of the result array is in point t's block iff each coordinate is in the block's range. -/
theorem mem_block (t : Fin cfg0.N) (i : S10000x512.Idx) :
    i ∈ ((cfg0.win 3).blk t).view.set ↔ ∀ a : Fin 2, win0_3.index t a * S1000x512.size a ≤ (i a).val ∧ (i a).val < win0_3.index t a * S1000x512.size a + S1000x512.size a := by
  show i ∈ ((View.whole main_v17).slice (win0_3.rect t)).set ↔ _
  rw [View.set_slice_whole, Rect.mem_set_unit]
  exact Iff.rfl

/-- Row r lies in the block of point r / 1000. -/
theorem covered (i : S10000x512.Idx) :
    ∃ t : Fin cfg0.N, (cfg0.win 3).flush t = true ∧ i ∈ ((cfg0.win 3).blk t).view.set := by
  have h0 : (i 0).val < 10000 := (i 0).isLt
  have h1 : (i 1).val < 512 := (i 1).isLt
  have hN : cfg0.N = 10 := N_0
  obtain ⟨t, ht⟩ : ∃ t : Fin cfg0.N, t.val = (i 0).val / 1000 := ⟨⟨(i 0).val / 1000, by rw [hN]; omega⟩, rfl⟩
  obtain ⟨-, -, -, -, -, -, e6, e7⟩ := block_index t
  refine ⟨t, flush0_3 t, ?_⟩
  rw [mem_block]
  intro a
  match a with
  | ⟨0, _⟩ => show win0_3.index t 0 * 1000 ≤ (i 0).val ∧ (i 0).val < win0_3.index t 0 * 1000 + 1000; rw [e6, ht]; omega
  | ⟨1, _⟩ => show win0_3.index t 1 * 512 ≤ (i 1).val ∧ (i 1).val < win0_3.index t 1 * 512 + 512; rw [e7]; omega

/-- The result array after the run: the layer of the arrays as the region found them. -/
theorem final (c : Dev nD) :
    (dats m 0 c).arrAt 3 cfg0.N = Cert.Layer.layer (V m c main_v16) (V m c main_arg5) (V m c main_arg6) :=
  (dats m 0 c).arrAt_eq_of_cover 3 (Cert.Layer.layer (V m c main_v16) (V m c main_arg5) (V m c main_arg6))
    (fun t _ => flushed_eq m c t) covered

end Cert.KernelIdeal.Whole

end
-- ==== Proof.ReferenceValue.lean ====
/-
  The reference's result, read at an index, is the layer of its own aggregated features, the weight and the noise.

  The reference multiplies the aggregated features by the TRANSPOSED weight, contracting the features' second axis
  with the transposed weight's first: element (r, j) is ∑ k, A (r, k) · Wᵀ (k, j) = ∑ k, A (r, k) · W (j, k). It
  divides the 0/1 mask by the keep-probability word, which on the extended reals is the product with that word's
  exact reciprocal.
-/
import proofs.«180000_j12678743458315_1_alg».proof.Proof.Gen.ReferenceIdeal.Read
import proofs.«180000_j12678743458315_1_alg».proof.Proof.Layer

noncomputable section

namespace Cert.ReferenceIdeal.Whole

open Cert.ReferenceIdeal Cert.ReferenceIdeal.Read Idealize.ShloMosaic Idealize.ShloMosaic.ValueIdx

/-- The reference's last stage is the layer of its aggregation stage and the two arguments it reads after it. -/
theorem result_eq_layer (x0 : (⟨S10000x512, .f32⟩ : BufTy).Contents (Elt Ideal)) (x1 x2 : (⟨S160000, .i32⟩ : BufTy).Contents (Elt Ideal))
    (x3 : (⟨S160000, .f32⟩ : BufTy).Contents (Elt Ideal)) (x4 : (⟨S10000, .f32⟩ : BufTy).Contents (Elt Ideal))
    (x5 : (⟨S512x512, .f32⟩ : BufTy).Contents (Elt Ideal)) (x6 : (⟨S10000x512, .f32⟩ : BufTy).Contents (Elt Ideal)) :
    val_main_v26 (F := Ideal) x0 x1 x2 x3 x4 x5 x6
      = Cert.Layer.layer (val_main_v16 (F := Ideal) x0 x1 x2 x3 x4) x5 x6 := by
  funext i
  have hl : ∀ k : Fin 512, lidx_main_v18 i k = ix2 (i 0) k := fun k => funext fun a => Fin.ext (by
    match a with
    | ⟨0, _⟩ => rfl
    | ⟨1, _⟩ => rfl)
  have hr : ∀ k : Fin 512, idx_main_v17 (ridx_main_v18 i k) = ix2 (i 1) k := fun k => funext fun a => Fin.ext (by
    match a with
    | ⟨0, _⟩ => rfl
    | ⟨1, _⟩ => rfl)
  rw [val_main_v26_apply, val_main_v20_apply, val_main_v18_apply, val_main_v19_apply, val_main_cst_1_apply,
    val_main_v25_apply, val_main_v23_apply, val_main_v22_apply, val_main_v21_apply, val_main_cst_2_apply,
    val_main_v24_apply, val_main_cst_3_apply]
  simp only [val_main_v17_apply, hl, hr]
  unfold Cert.Layer.layer Cert.Layer.keep
  simp only [Ideal.mulf_def, Ideal.maximumf_def, Ideal.hostDivf_def, Ideal.ofBits_def, Cert.KeepFactor.div_keep]
  rfl

end Cert.ReferenceIdeal.Whole

end
-- ==== Proof.Aggregate.lean ====
/-
  The aggregated features are computed by the same host operations in both programs: a gather of the source rows,
  a division by the edge normalizers, a scatter-add into the destination rows, and the self term added. The
  kernel's region finds in its first window's array exactly the reference's aggregation stage of the arguments.
-/
import proofs.«180000_j12678743458315_1_alg».proof.Proof.Gen.KernelIdeal.Frame
import proofs.«180000_j12678743458315_1_alg».proof.Proof.Gen.ReferenceIdeal.Read
import Idealize.ShloMosaic.Lib.StableHlo.Run

noncomputable section

namespace Cert.KernelIdeal.Aggregate

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 2000000 in
/-- The array the region's first window stages is the reference's aggregation stage of the launched arguments. -/
theorem found (c : Dev nD) :
    (V m c main_v16 : S10000x512.Idx → EReal)
      = Cert.ReferenceIdeal.Read.val_main_v16 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  show StableHlo.after (hostOps0 (F := Ideal)) (fun b => m (c, b)) (Proc.devRef .tc main_v16) = _
  after_results_simp
  rfl

end Cert.KernelIdeal.Aggregate

end
-- ==== Proof.lean ====
/-
  A graph-convolution layer: aggregated neighbour features times the transposed weight, relu, and a deterministic
  dropout — a tiled kernel against a plain reference, equal over the extended reals.

  Both programs aggregate with the same host operations (gather the source rows, divide by the edge normalizers,
  scatter-add into the destination rows, add the self term), so the aggregated matrix A is one term on both sides
  and is never opened. After it, at (r, j), both compute

      max (∑ k, A (r, k) · W (j, k)) 0 · keep (D (r, j)):

  the kernel by a matrix product contracting the second axis of a 1000-row block of A with the second axis of W,
  in ten row blocks that tile the result; the reference by one product with the transposed weight. The kernel's
  changes of float format are the identity on the extended reals and its product into a zero accumulator is the
  plain sum, which is also what the reference's product is. The dropout factor keep u is the 0/1 indicator of
  u ≥ the threshold word times a scale: the kernel multiplies by a constant the certificate's table names
  "inv_keep" = 16777216/11744051, the exact reciprocal of the word 11744051/16777216 the reference divides by, and
  dividing an extended real by a non-zero real is multiplying by its reciprocal. No step uses distributivity or
  cancellation, so the finiteness of the inputs is never opened.

  The three frames are the generated ones (the reference's is its run with the result dropped); the one ledger
  entry is the named constant's statement.
-/
import proofs.«180000_j12678743458315_1_alg».proof.Defs
import proofs.«180000_j12678743458315_1_alg».proof.Proof.Gen.Kernel
import proofs.«180000_j12678743458315_1_alg».proof.Proof.Gen.Kernel.Skeleton
import proofs.«180000_j12678743458315_1_alg».proof.Proof.Gen.Kernel.Launch
import proofs.«180000_j12678743458315_1_alg».proof.Proof.Gen.Kernel.Points
import proofs.«180000_j12678743458315_1_alg».proof.Proof.Gen.Kernel.Frame
import proofs.«180000_j12678743458315_1_alg».proof.Proof.Gen.KernelIdeal
import proofs.«180000_j12678743458315_1_alg».proof.Proof.Gen.KernelIdeal.Skeleton
import proofs.«180000_j12678743458315_1_alg».proof.Proof.Gen.KernelIdeal.Launch
import proofs.«180000_j12678743458315_1_alg».proof.Proof.Gen.KernelIdeal.Points
import proofs.«180000_j12678743458315_1_alg».proof.Proof.Gen.KernelIdeal.Frame
import proofs.«180000_j12678743458315_1_alg».proof.Proof.Gen.ReferenceIdeal
import proofs.«180000_j12678743458315_1_alg».proof.Proof.Gen.Pre_finite_inputs
import proofs.«180000_j12678743458315_1_alg».proof.Proof.Gen.KernelIdeal.Value
import proofs.«180000_j12678743458315_1_alg».proof.Proof.Gen.ReferenceIdeal.Run
import proofs.«180000_j12678743458315_1_alg».proof.Proof.Gen.ReferenceIdeal.Read
import proofs.«180000_j12678743458315_1_alg».proof.Proof.KernelValue
import proofs.«180000_j12678743458315_1_alg».proof.Proof.ReferenceValue
import proofs.«180000_j12678743458315_1_alg».proof.Proof.Aggregate
import Idealize.ShloMosaic.Adequacy
import Idealize.ShloMosaic.Init

noncomputable section

namespace Cert.Proof

open Idealize.ShloMosaic Idealize.ShloMosaic.TcCoe Idealize.SL.Sem

/-- The kernel's run, read: the result array ends at the layer of the reference's aggregation stage of the launched
    arguments, the launched weight and the launched noise; the arguments end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v17)
          = Cert.Layer.layer
              (Cert.ReferenceIdeal.Read.val_main_v16 (F := Ideal)
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4)))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) :=
  (θ_run Cert.KernelIdeal.defs _ _).mono
    (fun _ h c => ⟨(h c).1.trans ((Cert.KernelIdeal.Whole.final m c).trans (by
        rw [Cert.KernelIdeal.Aggregate.found m c, Cert.KernelIdeal.Gen.V_main_arg5 m c, Cert.KernelIdeal.Gen.V_main_arg6 m c])),
      (h c).2⟩)
    (Cert.KernelIdeal.Value.run_blocks (F := Ideal) m ρ)

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The ledger's one entry: the table gives "inv_keep" the value 16777216/11744051, which the printed constant is
    at the ideal instance. -/
theorem preserves : Cert.preserves_Kernel_KernelIdeal :=
  IdealRules.named_const.statement Cert.KernelIdeal.κ "inv_keep" .f32 0x3FB6DB6E#32 ((16777216 / 11744051 : ℝ) : EReal) rfl

/-- Both runs end with the result at the layer of one aggregated matrix, one weight and one noise array. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v26_eq, Cert.ReferenceIdeal.Whole.result_eq_layer, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
